-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, and the one law that joins them.

  For x : [8192, 4096], W : [4096, 4096], b : [4096] the result at (r, c) is

      max (Σ_{k < 4096} x[r, k] · s(W[k, c]) + b[c]) 0,        s(w) = +1 if w ≥ 0, −1 otherwise.

  The reference contracts all 4096 indices at once. The kernel visits the contraction axis in four
  consecutive stretches of 1024: it starts from 0, adds one stretch's partial dot product per visit,
  and applies bias and the clamp at zero after the last. Addition on the extended reals is
  associative and commutative with neutral element 0, so a sum over `range (n + 1024)` is the sum
  over `range n` plus the next 1024 terms: the kernel's running value after stretch j is the sum of
  the first 1024·(j+1) terms, and after the last stretch it is the whole contraction. No finiteness
  of the inputs is needed for that.
-/
import Idealize.ShloMosaic.PureOps.Ideal
import Idealize.ShloMosaic.PureOps.Ideal.Laws
import Idealize.ShloMosaic.Lib.ValueIdx

noncomputable section

open scoped BigOperators

namespace Cert.BinaryDense

open Idealize.ShloMosaic Idealize.ShloMosaic.ValueIdx

/-- The binarized weight s(w): the literal 1 where `w ≥ 0` (the literal 0), the literal −1 elsewhere,
    with the comparison, the selection and the three literals spelled as both programs spell them. -/
def bsign (w : EReal) : EReal :=
  Scalar.select (FloatOps.cmpf (F := Ideal) (φ := .f32) .oge w (Ideal.ofBits .f32 0x00000000#32))
    (Ideal.ofBits .f32 0x3F800000#32) (Ideal.ofBits .f32 0xBF800000#32)

/-- Term k of the dot product of row r of x with column c of s(W), as a function of a natural
    number (0 past the contraction's extent, where it is never read). -/
def term (x : (⟨2, ![8192, 4096]⟩ : Shape).Idx → EReal) (W : (⟨2, ![4096, 4096]⟩ : Shape).Idx → EReal)
    (r : Fin 8192) (c : Fin 4096) (k : ℕ) : EReal :=
  if h : k < 4096 then x (ix2 r ⟨k, h⟩) * bsign (W (ix2 ⟨k, h⟩ c)) else 0

/-- The sum of the first n terms of that dot product. -/
def partialDot (x : (⟨2, ![8192, 4096]⟩ : Shape).Idx → EReal) (W : (⟨2, ![4096, 4096]⟩ : Shape).Idx → EReal)
    (r : Fin 8192) (c : Fin 4096) (n : ℕ) : EReal :=
  ∑ k ∈ Finset.range n, term x W r c k

/-- The layer: the full dot product plus the bias, clamped below at the literal 0. -/
def dense (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => max (partialDot x W (i 0) (i 1) 4096 + b (ix1 (i 1))) (Ideal.ofBits .f32 0x00000000#32)

/-- Inside the contraction's extent a term is the product it names. -/
theorem term_of_lt (x : (⟨2, ![8192, 4096]⟩ : Shape).Idx → EReal) (W : (⟨2, ![4096, 4096]⟩ : Shape).Idx → EReal)
    (r : Fin 8192) (c : Fin 4096) (k : ℕ) (h : k < 4096) :
    term x W r c k = x (ix2 r ⟨k, h⟩) * bsign (W (ix2 ⟨k, h⟩ c)) := dif_pos h

/-- The whole contraction, summed over its index type, is the sum of all 4096 terms. -/
theorem sum_fin_eq_partialDot (x : (⟨2, ![8192, 4096]⟩ : Shape).Idx → EReal) (W : (⟨2, ![4096, 4096]⟩ : Shape).Idx → EReal)
    (r : Fin 8192) (c : Fin 4096) :
    ∑ k : Fin 4096, x (ix2 r k) * bsign (W (ix2 k c)) = partialDot x W r c 4096 := by
  unfold partialDot
  rw [← Fin.sum_univ_eq_sum_range (fun k => term x W r c k) 4096]
  exact Finset.sum_congr rfl fun k _ => (term_of_lt x W r c k.val k.isLt).symm

/-- One stretch of 1024 contraction indices starting at 1024·j, read through blocks `xb` of x and
    `wb` of W that hold those entries: the stretch's partial dot product is the next 1024 terms. -/
theorem stretch_eq (x : (⟨2, ![8192, 4096]⟩ : Shape).Idx → EReal) (W : (⟨2, ![4096, 4096]⟩ : Shape).Idx → EReal)
    (r : Fin 8192) (c : Fin 4096) (j : ℕ) (hj : j < 4)
    (xb : (⟨2, ![1024, 1024]⟩ : Shape).Idx → EReal) (wb : (⟨2, ![1024, 512]⟩ : Shape).Idx → EReal)
    (p : Fin 1024) (q : Fin 512)
    (hx : ∀ k' : Fin 1024, xb (ix2 p k') = x (ix2 r ⟨1024 * j + k'.val, by have := k'.isLt; omega⟩))
    (hw : ∀ k' : Fin 1024, wb (ix2 k' q) = W (ix2 ⟨1024 * j + k'.val, by have := k'.isLt; omega⟩ c)) :
    ∑ k' : Fin 1024, xb (ix2 p k') * bsign (wb (ix2 k' q))
      = ∑ k' ∈ Finset.range 1024, term x W r c (1024 * j + k') := by
  rw [← Fin.sum_univ_eq_sum_range (fun k' => term x W r c (1024 * j + k')) 1024]
  refine Finset.sum_congr rfl fun k' _ => ?_
  rw [hx k', hw k', term_of_lt x W r c (1024 * j + k'.val) (by have := k'.isLt; omega)]

/-- Adding a stretch's terms to the sum of the terms before it gives the sum through that stretch. -/
theorem partialDot_add_stretch (x : (⟨2, ![8192, 4096]⟩ : Shape).Idx → EReal) (W : (⟨2, ![4096, 4096]⟩ : Shape).Idx → EReal)
    (r : Fin 8192) (c : Fin 4096) (j : ℕ) :
    partialDot x W r c (1024 * j) + ∑ k' ∈ Finset.range 1024, term x W r c (1024 * j + k')
      = partialDot x W r c (1024 * (j + 1)) := by
  unfold partialDot
  rw [Nat.mul_succ, Finset.sum_range_add]

/-- Before the first stretch nothing has been summed. -/
theorem partialDot_zero (x : (⟨2, ![8192, 4096]⟩ : Shape).Idx → EReal) (W : (⟨2, ![4096, 4096]⟩ : Shape).Idx → EReal)
    (r : Fin 8192) (c : Fin 4096) : partialDot x W r c (1024 * 0) = 0 := by
  unfold partialDot; simp

end Cert.BinaryDense

end
-- ==== Proof.RefDense.lean ====
/-
  The reference computes the layer.

  Read one operation at a time, the reference's result at (r, c) is the clamp at zero of the sum over
  all 4096 contraction indices k of x[r, k] · s(W[k, c]), plus b[c]: the comparison against the
  broadcast literal 0 and the selection between the broadcast literals 1 and −1 are s, entry by
  entry; the two broadcasts of b read b[c]. That is `BinaryDense.dense`, the contraction taken as
  the sum of all its 4096 terms.
-/
import proofs.«175944_j91070486544907_1_alg».proof.Proof.Gen.ReferenceIdeal.Read
import proofs.«175944_j91070486544907_1_alg».proof.Proof.Spec

noncomputable section

open scoped BigOperators

namespace Cert.ReferenceIdeal.DenseValue

open Cert.ReferenceIdeal Cert.ReferenceIdeal.Read Idealize.ShloMosaic Idealize.ShloMosaic.ValueIdx Cert.BinaryDense

/-- The reference's last stage, as a function of the three arguments, is the layer. -/
theorem stage_eq_dense (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v7 (F := Ideal) x0 x1 x2 = dense x0 x1 x2 := by
  funext i
  obtain ⟨r, c, rfl⟩ : ∃ (r : Fin 8192) (c : Fin 4096), i = ix2 r c := ⟨i 0, i 1, eq_ix2 i⟩
  have el : ∀ k : Fin 4096, lidx_main_v3 (ix2 r c) k = ix2 r k := fun k => funext fun a => by
    match a with
    | ⟨0, _⟩ => rfl
    | ⟨1, _⟩ => rfl
  have er : ∀ k : Fin 4096, ridx_main_v3 (ix2 r c) k = ix2 k c := fun k => funext fun a => by
    match a with
    | ⟨0, _⟩ => rfl
    | ⟨1, _⟩ => rfl
  have eb : idx_main_v4 (idx_main_v5 (ix2 r c)) = ix1 c := funext fun a => by
    match a with
    | ⟨0, _⟩ => rfl
  rw [val_main_v7_apply, val_main_v6_apply, val_main_v3_apply, val_main_v5_apply, val_main_v4_apply,
    val_main_call1_v0_apply, val_main_call1_cst_apply]
  simp only [val_main_v2_apply, val_main_v1_apply, val_main_v0_apply, val_main_cst_apply, val_main_call0_v0_apply,
    val_main_cst_0_apply, val_main_call0_v1_apply, val_main_cst_1_apply, el, er, eb]
  unfold dense
  show _ = max (partialDot x0 x1 r c 4096 + x2 (ix1 c)) (Ideal.ofBits .f32 0x00000000#32)
  rw [← sum_fin_eq_partialDot]
  rfl

end Cert.ReferenceIdeal.DenseValue

end
-- ==== Proof.Visit.lean ====
/-
  What one visit of the kernel body leaves behind, as plain functions of what it read.

  A visit reads the block of x, the block of W, (on the last stretch) the block of b, and the running
  value left by the visit before. It leaves the new running value

      acc' = acc + xblock · s(wblock)          (acc = 0 on the first stretch of a tile)

  and, on the last stretch only, the output tile max (acc' + b) 0. The body stores each of these
  through one rectangle covering the whole buffer, and reads the running value back after storing it,
  so each buffer's final contents is the last payload stored into it.
-/
import proofs.«175944_j91070486544907_1_alg».proof.Proof.Gen.KernelIdeal.Frame
import Idealize.ShloMosaic.Lib.Pipeline.Value
import Idealize.ShloMosaic.Lib.Tactic

set_option maxRecDepth 16384

noncomputable section

namespace Cert.KernelIdeal.Visit

open Cert.KernelIdeal Cert.KernelIdeal.Gen Idealize.ShloMosaic Idealize.ShloMosaic.TcCoe Idealize.ShloMosaic.Tactic Idealize.SL.Sem

variable {F : FTy → Type} [FloatOps F]

/-- The offsets of the body's rectangles are all zero. -/
theorem zero_off : (![0, 0] : Fin 2 → Nat) = fun _ => 0 := funext fun a => by
  match a with
  | ⟨0, _⟩ => rfl
  | ⟨1, _⟩ => rfl

/-- First stretch of a tile: the running value is reset to zero, read back, and the stretch's product added. -/
theorem first_acc (c : Dev nD) (i : grid0.Coords) (arg3 : Memref sig .tc .vmem S1024x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x1024 .f32) (x1 : Vec F S1024x512 .f32) (x2 : Vec F S1x512 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x512) zero_off]
  simp only [View.readAt_eq_ld, harg3.read_unread, harg4.read_unread, View.ld_unit_zero (S := S1024x1024) zero_off,
    View.ld_unit_zero (S := S1024x512) zero_off, View.readCov_unit_zero (S := S1024x512) _ zero_off]

/-- A middle stretch: the stretch's product is added to the running value the visit before left (`acc`). -/
theorem middle_acc (c : Dev nD) (i : grid0.Coords) (arg3 : Memref sig .tc .vmem S1024x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x1024 .f32) (x1 : Vec F S1024x512 .f32) (x2 : Vec F S1x512 .f32) (acc : Vec F S1024x512 .f32) :
    sout0_B_0 c i arg3 harg3 arg4 harg4 arg5 harg5 arg6 harg6 arg7 harg7 hc0 hc1 x0 x1 x2 acc = k0_pay2 x0 x1 acc := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  sl_unfold_words
  rw [View.canon_unit_zero (S := S1024x512) zero_off]
  simp only [View.readAt_eq_ld, harg3.read_unread, harg4.read_unread, harg7.read_unread,
    View.ld_unit_zero (S := S1024x1024) zero_off, View.ld_unit_zero (S := S1024x512) zero_off]

/-- The last stretch adds its product the same way; -/
theorem last_acc (c : Dev nD) (i : grid0.Coords) (arg3 : Memref sig .tc .vmem S1024x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x1024 .f32) (x1 : Vec F S1024x512 .f32) (x2 : Vec F S1x512 .f32) (acc : Vec F S1024x512 .f32) :
    sout0_C_0 c i arg3 harg3 arg4 harg4 arg5 harg5 arg6 harg6 arg7 harg7 hc0 hc1 x0 x1 x2 acc = k0_pay2 x0 x1 acc := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero (S := S1024x512) zero_off]
  simp only [View.readAt_eq_ld, harg3.read_unread, harg4.read_unread, harg7.read_unread,
    View.ld_unit_zero (S := S1024x1024) zero_off, View.ld_unit_zero (S := S1024x512) zero_off]

/-- and then writes the output tile: the new running value plus the bias block, clamped at zero. -/
theorem last_out (c : Dev nD) (i : grid0.Coords) (arg3 : Memref sig .tc .vmem S1024x1024 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x1024 .f32) (x1 : Vec F S1024x512 .f32) (x2 : Vec F S1x512 .f32) (acc : Vec F S1024x512 .f32) :
    out0_C_3 c i arg3 harg3 arg4 harg4 arg5 harg5 arg6 harg6 arg7 harg7 hc0 hc1 x0 x1 x2 acc = k0_pay3 (k0_pay2 x0 x1 acc) x2 := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero (S := S1024x512) zero_off]
  simp only [View.readAt_eq_ld, harg3.read_unread, harg4.read_unread, harg5.read_unread, harg7.read_unread,
    View.ld_unit_zero (S := S1024x1024) zero_off, View.ld_unit_zero (S := S1024x512) zero_off,
    View.ld_unit_zero (S := S1x512) zero_off, View.readCov_unit_zero (S := S1024x512) _ zero_off]

end Cert.KernelIdeal.Visit

end
-- ==== Proof.Entry.lean ====
/-
  The body's three payloads read at one entry, on the extended reals.

  At entry (p, q) of a 1024 × 512 tile:
    * the reset value is 0;
    * the accumulation step is acc[p, q] + Σ_{k' < 1024} xblock[p, k'] · s(wblock[k', q])
      (the two narrowings to the 16-bit format are the identity here, and the product unit started
      from a zero accumulator is the plain sum over its one contracted axis);
    * the output tile is max (acc[p, q] + bblock[0, q]) 0.
-/
import proofs.«175944_j91070486544907_1_alg».proof.Proof.Gen.KernelIdeal.Skeleton
import proofs.«175944_j91070486544907_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.ValueIdx Cert.BinaryDense

/-! ## The product unit's operand indices: row p of the left block, column q of the right, the one
    contracted coordinate on the other axis of each -/

theorem lhs_axis0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_axis1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_axis0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_axis1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- A tile product into the zero accumulator, at entry (p, q): the sum over the 1024 shared indices. -/
theorem tile_product_apply (xb : FVec Ideal S1024x1024 .bf16) (wb : FVec Ideal S1024x512 .bf16) (p : Fin 1024) (q : Fin 512) :
    matmul dot_S1024x1024_S1024x512_S1024x512_1_0_0_1_n_n none xb wb (constant S1024x512 .f32 0x00000000#32) (ix2 p q)
      = ∑ k' : Fin 1024, xb (ix2 p k') * wb (ix2 k' q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The reset value is zero everywhere. -/
theorem reset_apply (p : Fin 1024) (q : Fin 512) : k0_pay1 (F := Ideal) (ix2 p q) = 0 := by
  unfold k0_pay1
  simp only [shapeCast_self]
  exact Ideal.ofBits_zero_f32

/-- The accumulation step at entry (p, q). -/
theorem step_apply (x0 : Vec Ideal S1024x1024 .f32) (x1 : Vec Ideal S1024x512 .f32) (acc : Vec Ideal S1024x512 .f32)
    (p : Fin 1024) (q : Fin 512) :
    k0_pay2 (F := Ideal) x0 x1 acc (ix2 p q)
      = acc (ix2 p q) + ∑ k' : Fin 1024, x0 (ix2 p k') * bsign (x1 (ix2 k' q)) := by
  unfold k0_pay2
  simp only [shapeCast_self]
  refine congrArg (acc (ix2 p q) + ·) ?_
  refine (tile_product_apply _ _ p q).trans ?_
  exact Finset.sum_congr rfl fun k' _ => rfl

/-- The output tile at entry (p, q): the bias block has one row, read at column q. -/
theorem out_apply (acc : Vec Ideal S1024x512 .f32) (bb : Vec Ideal S1x512 .f32) (p : Fin 1024) (q : Fin 512) :
    k0_pay3 (F := Ideal) acc bb (ix2 p q)
      = max (acc (ix2 p q) + bb (ix2 (0 : Fin 1) q)) (Ideal.ofBits .f32 0x00000000#32) := by
  unfold k0_pay3
  simp only [shapeCast_self]
  have hb : broadcastTo S1024x512 bb broadcasts_S1x512_S1024x512 (ix2 p q) = bb (ix2 (0 : Fin 1) q) :=
    broadcastTo_apply bb broadcasts_S1x512_S1024x512 (ix2 p q) (ix2 (0 : Fin 1) q) (fun a => by
      match a with
      | ⟨0, _⟩ => show (0 : ℕ) = if (1 : ℕ) = 1 then 0 else _; rw [if_pos rfl]
      | ⟨1, _⟩ => show q.val = if (512 : ℕ) = 1 then 0 else q.val; rw [if_neg (by decide)])
  exact congrArg (fun z => max (acc (ix2 p q) + z) (Ideal.ofBits .f32 0x00000000#32)) hb

end Cert.KernelIdeal.Entry

end
-- ==== Proof.Blocks.lean ====
/-
  Where each visit's blocks sit in the arrays.

  The grid has 8 × 8 × 4 points, visited in row-major order: point t is tile row t / 32, tile column
  (t / 4) % 8, contraction stretch t % 4. At point t
    * the block of x is rows 1024·(t/32) …, columns 1024·(t%4) …;
    * the block of W is rows 1024·(t%4) …, columns 512·((t/4)%8) …;
    * the block of b (as a 1 × 4096 row) is columns 512·((t/4)%8) …;
    * the output tile is rows 1024·(t/32) …, columns 512·((t/4)%8) ….
  The 1 × 4096 row the kernel reads is the bias vector itself, entry for entry.
-/
import proofs.«175944_j91070486544907_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The block index of each window at point t -/

theorem where_x : ∀ t : Fin cfg0.N, win0_0.index t 0 = t.val / 32 ∧ win0_0.index t 1 = t.val % 4 :=
  (by decide +kernel : ∀ t : Fin grid0.N, win0_0.index t 0 = t.val / 32 ∧ win0_0.index t 1 = t.val % 4)
theorem where_w : ∀ t : Fin cfg0.N, win0_1.index t 0 = t.val % 4 ∧ win0_1.index t 1 = t.val / 4 % 8 :=
  (by decide +kernel : ∀ t : Fin grid0.N, win0_1.index t 0 = t.val % 4 ∧ win0_1.index t 1 = t.val / 4 % 8)
theorem where_b : ∀ t : Fin cfg0.N, win0_2.index t 0 = 0 ∧ win0_2.index t 1 = t.val / 4 % 8 :=
  (by decide +kernel : ∀ t : Fin grid0.N, win0_2.index t 0 = 0 ∧ win0_2.index t 1 = t.val / 4 % 8)
theorem where_o : ∀ t : Fin cfg0.N, win0_3.index t 0 = t.val / 32 ∧ win0_3.index t 1 = t.val / 4 % 8 :=
  (by decide +kernel : ∀ t : Fin grid0.N, win0_3.index t 0 = t.val / 32 ∧ win0_3.index t 1 = t.val / 4 % 8)

/-! ## The three argument arrays, at their literal types -/

abbrev xarr (c : Dev nD) : Vec Ideal S8192x4096 .f32 := m ((c : Thread nD τ).loc main_arg0)
abbrev warr (c : Dev nD) : Vec Ideal S4096x4096 .f32 := m ((c : Thread nD τ).loc main_arg1)
abbrev barr (c : Dev nD) : Vec Ideal S4096 .f32 := m ((c : Thread nD τ).loc main_arg2)

/-- The row the kernel's third window reads is the bias vector viewed as 1 × 4096. -/
theorem bias_row (c : Dev nD) :
    (V m c main_v0 : S1x4096.Idx → EReal) = shapeCast S1x4096 (barr m c) shapeCasts_S4096_S1x4096 := by
  dsimp only [Gen.V, Gen.hostOps0]; after_results; rfl

/-! ## The blocks read at an entry -/

/-- Entry (p, k') of x's block at point t is x[1024·(t/32) + p, 1024·(t%4) + k']. -/
theorem xblock_apply (c : Dev nD) (t : Fin cfg0.N) (p k' : Fin 1024) (r : Fin 8192) (k : Fin 4096)
    (hr : r.val = 1024 * (t.val / 32) + p.val) (hk : k.val = 1024 * (t.val % 4) + k'.val) :
    (iblk m c 0 t : Vec Ideal S1024x1024 .f32) (ix2 p k') = xarr m c (ix2 r k) := by
  unfold iblk
  rw [View.read_apply]
  show V m c main_arg0 _ = _
  rw [V_main_arg0]
  refine congrArg (xarr m c) (funext fun a => Fin.ext ?_)
  match a with
  | ⟨0, _⟩ => show win0_0.index t 0 * 1024 + 1 * p.val = r.val; rw [(where_x t).1]; omega
  | ⟨1, _⟩ => show win0_0.index t 1 * 1024 + 1 * k'.val = k.val; rw [(where_x t).2]; omega

/-- Entry (k', q) of W's block at point t is W[1024·(t%4) + k', 512·((t/4)%8) + q]. -/
theorem wblock_apply (c : Dev nD) (t : Fin cfg0.N) (k' : Fin 1024) (q : Fin 512) (k : Fin 4096) (cc : Fin 4096)
    (hk : k.val = 1024 * (t.val % 4) + k'.val) (hc : cc.val = 512 * (t.val / 4 % 8) + q.val) :
    (iblk m c 1 t : Vec Ideal S1024x512 .f32) (ix2 k' q) = warr m c (ix2 k cc) := by
  unfold iblk
  rw [View.read_apply]
  show V m c main_arg1 _ = _
  rw [V_main_arg1]
  refine congrArg (warr m c) (funext fun a => Fin.ext ?_)
  match a with
  | ⟨0, _⟩ => show win0_1.index t 0 * 1024 + 1 * k'.val = k.val; rw [(where_w t).1]; omega
  | ⟨1, _⟩ => show win0_1.index t 1 * 512 + 1 * q.val = cc.val; rw [(where_w t).2]; omega

/-- Entry (0, q) of the bias block at point t is b[512·((t/4)%8) + q]. -/
theorem bblock_apply (c : Dev nD) (t : Fin cfg0.N) (q : Fin 512) (cc : Fin 4096)
    (hc : cc.val = 512 * (t.val / 4 % 8) + q.val) :
    (iblk m c 2 t : Vec Ideal S1x512 .f32) (ix2 (0 : Fin 1) q) = barr m c (ix1 cc) := by
  unfold iblk
  rw [View.read_apply]
  show (V m c main_v0 : S1x4096.Idx → EReal) _ = _
  rw [bias_row]
  refine shapeCast_apply (barr m c) shapeCasts_S4096_S1x4096 _ (ix1 cc) ?_
  rw [Shape.rowMajor_val_one, Shape.rowMajor_val_two]
  show cc.val = (win0_2.index t 0 * 1 + 1 * 0) * 4096 + (win0_2.index t 1 * 512 + 1 * q.val)
  rw [(where_b t).1, (where_b t).2]; omega

end Cert.KernelIdeal.Blocks

end
-- ==== Proof.Accum.lean ====
/-
  The running value, visit by visit.

  Fix an output entry: row r = 1024·(t/32) + p, column c = 512·((t/4)%8) + q, for the tile the visits
  t = 4u, 4u+1, 4u+2, 4u+3 work on. After visit t the running value at (p, q) is the sum of the first
  1024·(t%4 + 1) terms of the dot product of row r of x with column c of s(W):
    * at t%4 = 0 it is 0 plus the first stretch's 1024 terms;
    * at every other visit it is what the visit before left (the first 1024·(t%4) terms, by
      induction: the visit before works on the same tile) plus this stretch's 1024 terms.
  At t%4 = 3 that is the whole dot product, and the tile written back is its clamp after the bias.
-/
import proofs.«175944_j91070486544907_1_alg».proof.Proof.Gen.KernelIdeal.Frame
import proofs.«175944_j91070486544907_1_alg».proof.Proof.Visit
import proofs.«175944_j91070486544907_1_alg».proof.Proof.Entry
import proofs.«175944_j91070486544907_1_alg».proof.Proof.Blocks
import proofs.«175944_j91070486544907_1_alg».proof.Proof.Spec

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.BinaryDense Cert.KernelIdeal.Blocks

variable (m : (ℓ : Loc nD τ sig) → Buf (Elt Ideal) ℓ)

/-- The blocks of x, W and b at point t, at their literal types. -/
abbrev xblk (c : Dev nD) (t : Fin cfg0.N) : Vec Ideal S1024x1024 .f32 := iblk m c 0 t
abbrev wblk (c : Dev nD) (t : Fin cfg0.N) : Vec Ideal S1024x512 .f32 := iblk m c 1 t
abbrev bblk (c : Dev nD) (t : Fin cfg0.N) : Vec Ideal S1x512 .f32 := iblk m c 2 t

/-- The running value after point t (the scratch the kernel carries between visits). -/
abbrev accAfter (c : Dev nD) (n : ℕ) (hn : n < cfg0.N) : Vec Ideal S1024x512 .f32 := (outsAt0 m c n hn).2
/-- The output tile's staging contents after point t. -/
abbrev tileAfter (c : Dev nD) (n : ℕ) (hn : n < cfg0.N) : Vec Ideal S1024x512 .f32 := (outsAt0 m c n hn).1

/-! ## One visit, by kind -/

theorem acc_first (c : Dev nD) (t : Fin cfg0.N) (h0 : t.val % 4 = 0) (h1 : ¬t.val % 4 = 3) :
    accAfter m c t.val t.isLt = k0_pay2 (xblk m c t) (wblk m c t) (k0_pay1 (F := Ideal)) := by
  show (outsAt0 m c t.val t.isLt).2 = _
  rw [outsAt0_A m c t h0 h1]; dsimp only
  exact Visit.first_acc (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem acc_middle (c : Dev nD) (t : Fin cfg0.N) (h0 : ¬t.val % 4 = 0) (h1 : ¬t.val % 4 = 3) :
    accAfter m c t.val t.isLt = k0_pay2 (xblk m c t) (wblk m c t) (accAfter m c (t.val - 1) (Nat.lt_of_le_of_lt (Nat.sub_le _ _) t.isLt)) := by
  show (outsAt0 m c t.val t.isLt).2 = _
  rw [outsAt0_B m c t h0 h1]; dsimp only
  exact Visit.middle_acc (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

theorem acc_last (c : Dev nD) (t : Fin cfg0.N) (h0 : ¬t.val % 4 = 0) (h1 : t.val % 4 = 3) :
    accAfter m c t.val t.isLt = k0_pay2 (xblk m c t) (wblk m c t) (accAfter m c (t.val - 1) (Nat.lt_of_le_of_lt (Nat.sub_le _ _) t.isLt)) := by
  show (outsAt0 m c t.val t.isLt).2 = _
  rw [outsAt0_C m c t h0 h1]; dsimp only
  exact Visit.last_acc (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

theorem tile_last (c : Dev nD) (t : Fin cfg0.N) (h0 : ¬t.val % 4 = 0) (h1 : t.val % 4 = 3) :
    tileAfter m c t.val t.isLt = k0_pay3 (accAfter m c t.val t.isLt) (bblk m c t) := by
  rw [acc_last m c t h0 h1]
  show (outsAt0 m c t.val t.isLt).1 = _
  rw [outsAt0_C m c t h0 h1]; dsimp only
  exact Visit.last_out (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ## This visit's stretch of the dot product -/

/-- The stretch visit t adds at entry (p, q) is terms 1024·(t%4) … 1024·(t%4) + 1023 of the dot product
    of row r with column cc. -/
theorem stretch_at (c : Dev nD) (t : Fin cfg0.N) (p : Fin 1024) (q : Fin 512) (r : Fin 8192) (cc : Fin 4096)
    (hr : r.val = 1024 * (t.val / 32) + p.val) (hc : cc.val = 512 * (t.val / 4 % 8) + q.val) :
    ∑ k' : Fin 1024, xblk m c t (ix2 p k') * bsign (wblk m c t (ix2 k' q))
      = ∑ k' ∈ Finset.range 1024, term (xarr m c) (warr m c) r cc (1024 * (t.val % 4) + k') :=
  stretch_eq (xarr m c) (warr m c) r cc (t.val % 4) (Nat.mod_lt _ (by decide)) (xblk m c t) (wblk m c t) p q
    (fun k' => xblock_apply m c t p k' r ⟨1024 * (t.val % 4) + k'.val, by have := k'.isLt; have := Nat.mod_lt t.val (show 0 < 4 by decide); omega⟩ hr rfl)
    (fun k' => wblock_apply m c t k' q ⟨1024 * (t.val % 4) + k'.val, by have := k'.isLt; have := Nat.mod_lt t.val (show 0 < 4 by decide); omega⟩ cc rfl hc)

/-! ## The invariant -/

/-- After point n the running value at (p, q) is the first 1024·(n%4 + 1) terms of the entry's dot product. -/
theorem running (c : Dev nD) (n : ℕ) : ∀ (hn : n < cfg0.N) (p : Fin 1024) (q : Fin 512) (r : Fin 8192) (cc : Fin 4096),
    r.val = 1024 * (n / 32) + p.val → cc.val = 512 * (n / 4 % 8) + q.val →
    accAfter m c n hn (ix2 p q) = partialDot (xarr m c) (warr m c) r cc (1024 * (n % 4 + 1)) := by
  induction n using Nat.strong_induction_on with
  | _ n ih =>
    intro hn p q r cc hr hc
    have hN : n < 256 := lt_of_lt_of_eq hn (show cfg0.N = 256 from N_0)
    have step : ∀ (prev : Vec Ideal S1024x512 .f32),
        prev (ix2 p q) = partialDot (xarr m c) (warr m c) r cc (1024 * (n % 4)) →
        k0_pay2 (F := Ideal) (xblk m c ⟨n, hn⟩) (wblk m c ⟨n, hn⟩) prev (ix2 p q)
          = partialDot (xarr m c) (warr m c) r cc (1024 * (n % 4 + 1)) := by
      intro prev hprev
      refine (Entry.step_apply (xblk m c ⟨n, hn⟩) (wblk m c ⟨n, hn⟩) prev p q).trans ?_
      rw [hprev, stretch_at m c ⟨n, hn⟩ p q r cc hr hc]
      exact partialDot_add_stretch (xarr m c) (warr m c) r cc (n % 4)
    by_cases h0 : n % 4 = 0
    · have h1 : ¬n % 4 = 3 := by omega
      refine (congrFun (acc_first m c ⟨n, hn⟩ h0 h1) (ix2 p q)).trans ?_
      refine step (k0_pay1 (F := Ideal)) ?_
      rw [Entry.reset_apply, h0]
      exact (partialDot_zero (xarr m c) (warr m c) r cc).symm
    · have hprev : accAfter m c (n - 1) (Nat.lt_of_le_of_lt (Nat.sub_le _ _) hn) (ix2 p q)
          = partialDot (xarr m c) (warr m c) r cc (1024 * (n % 4)) := by
        rw [ih (n - 1) (by omega) (Nat.lt_of_le_of_lt (Nat.sub_le _ _) hn) p q r cc (by omega) (by omega)]
        rw [show (n - 1) % 4 + 1 = n % 4 by omega]
      by_cases h1 : n % 4 = 3
      · refine (congrFun (acc_last m c ⟨n, hn⟩ h0 h1) (ix2 p q)).trans ?_
        exact step _ hprev
      · refine (congrFun (acc_middle m c ⟨n, hn⟩ h0 h1) (ix2 p q)).trans ?_
        exact step _ hprev

/-- At the last stretch of a tile the tile written back is the layer's value at each of its entries. -/
theorem tile_entry (c : Dev nD) (t : Fin cfg0.N) (h0 : ¬t.val % 4 = 0) (h1 : t.val % 4 = 3)
    (p : Fin 1024) (q : Fin 512) (r : Fin 8192) (cc : Fin 4096)
    (hr : r.val = 1024 * (t.val / 32) + p.val) (hc : cc.val = 512 * (t.val / 4 % 8) + q.val) :
    tileAfter m c t.val t.isLt (ix2 p q) = dense (xarr m c) (warr m c) (barr m c) (ix2 r cc) := by
  refine (congrFun (tile_last m c t h0 h1) (ix2 p q)).trans ?_
  refine (Entry.out_apply (accAfter m c t.val t.isLt) (bblk m c t) p q).trans ?_
  rw [running m c t.val t.isLt p q r cc hr hc,
    show bblk m c t (ix2 (0 : Fin 1) q) = barr m c (ix1 cc) from bblock_apply m c t q cc hc, h1]
  rfl

end Cert.KernelIdeal.Accum

end
-- ==== Proof.Tiles.lean ====
/-
  From tiles to the whole result.

  The output array is written back once per tile, at the tile's last visit (t % 4 = 3), and by
  `Accum.tile_entry` what is written there is the layer's value on that tile's entries. The 64 tiles
  of 1024 × 512 cover the 8192 × 4096 result — entry (i, j) lies in the tile written at point
  ((i / 1024)·8 + j / 512)·4 + 3 — so after the run the result array holds the layer everywhere.
-/
import proofs.«175944_j91070486544907_1_alg».proof.Proof.Gen.KernelIdeal.Value
import proofs.«175944_j91070486544907_1_alg».proof.Proof.Accum

noncomputable section

namespace Cert.KernelIdeal.Tiles

open Cert.KernelIdeal Cert.KernelIdeal.Gen Idealize.ShloMosaic Idealize.ShloMosaic.TcCoe Idealize.SL.Sem
open Idealize.ShloMosaic.Pipeline (Dat)
open Idealize.ShloMosaic.ValueIdx Cert.BinaryDense Cert.KernelIdeal.Blocks Cert.KernelIdeal.Accum

variable (m : (ℓ : Loc nD τ sig) → Buf (Elt Ideal) ℓ) (ρ : Dev nD → PrngReg)

/-- What the result array holds after the run: the layer of the three arguments. -/
abbrev result (c : Dev nD) : Buf (Elt Ideal) ((c : Thread nD τ).loc main_v1) :=
  dense (xarr m c) (warr m c) (barr m c)

/-- What a tile's last visit writes back is that tile of the layer. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  have hN : t.val < 256 := lt_of_lt_of_eq t.isLt (show cfg0.N = 256 from N_0)
  rw [Value.flushed3]
  funext y
  obtain ⟨p, q, rfl⟩ : ∃ (p : Fin 1024) (q : Fin 512), y = ix2 p q := ⟨y 0, y 1, eq_ix2 y⟩
  show tileAfter m c t.val t.isLt (ix2 p q) = result m c (((cfg0.win 3).blk t).view.emb (ix2 p q))
  have hemb : ((cfg0.win 3).blk t).view.emb (ix2 p q)
      = ix2 (⟨1024 * (t.val / 32) + p.val, by have := p.isLt; omega⟩ : Fin 8192)
          (⟨512 * (t.val / 4 % 8) + q.val, by have := q.isLt; omega⟩ : Fin 4096) := funext fun a => Fin.ext (by
    match a with
    | ⟨0, _⟩ => show win0_3.index t 0 * 1024 + 1 * p.val = 1024 * (t.val / 32) + p.val; rw [(where_o t).1]; omega
    | ⟨1, _⟩ => show win0_3.index t 1 * 512 + 1 * q.val = 512 * (t.val / 4 % 8) + q.val; rw [(where_o t).2]; omega)
  rw [hemb]
  exact tile_entry m c t h0 h1 p q _ _ rfl rfl

/-- An entry of the result is in point t's tile iff each coordinate is in the tile's range. -/
theorem mem_tile (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every entry of the result lies in a tile that is written back. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hlt : ((i 0).val / 1024 * 8 + (i 1).val / 512) * 4 + 3 < cfg0.N := by
    rw [show cfg0.N = 256 from N_0]; omega
  refine ⟨⟨((i 0).val / 1024 * 8 + (i 1).val / 512) * 4 + 3, hlt⟩, (flush0_3 _).mpr (by show (((i 0).val / 1024 * 8 + (i 1).val / 512) * 4 + 3) % 4 = 3; omega), ?_⟩
  rw [mem_tile]
  intro a
  match a with
  | ⟨0, _⟩ =>
    show win0_3.index ⟨((i 0).val / 1024 * 8 + (i 1).val / 512) * 4 + 3, hlt⟩ 0 * 1024 ≤ (i 0).val ∧ (i 0).val < win0_3.index ⟨((i 0).val / 1024 * 8 + (i 1).val / 512) * 4 + 3, hlt⟩ 0 * 1024 + 1024
    rw [(where_o ⟨((i 0).val / 1024 * 8 + (i 1).val / 512) * 4 + 3, hlt⟩).1]
    show (((i 0).val / 1024 * 8 + (i 1).val / 512) * 4 + 3) / 32 * 1024 ≤ (i 0).val ∧ (i 0).val < (((i 0).val / 1024 * 8 + (i 1).val / 512) * 4 + 3) / 32 * 1024 + 1024
    omega
  | ⟨1, _⟩ =>
    show win0_3.index ⟨((i 0).val / 1024 * 8 + (i 1).val / 512) * 4 + 3, hlt⟩ 1 * 512 ≤ (i 1).val ∧ (i 1).val < win0_3.index ⟨((i 0).val / 1024 * 8 + (i 1).val / 512) * 4 + 3, hlt⟩ 1 * 512 + 512
    rw [(where_o ⟨((i 0).val / 1024 * 8 + (i 1).val / 512) * 4 + 3, hlt⟩).2]
    show (((i 0).val / 1024 * 8 + (i 1).val / 512) * 4 + 3) / 4 % 8 * 512 ≤ (i 1).val ∧ (i 1).val < (((i 0).val / 1024 * 8 + (i 1).val / 512) * 4 + 3) / 4 % 8 * 512 + 512
    omega

/-- After the run the result array is the layer. -/
theorem final (c : Dev nD) : (dats m 0 c).arrAt 3 cfg0.N = result m c :=
  (dats m 0 c).arrAt_eq_of_cover 3 (result m c) (fun t hf => flushed_eq m c t hf) cover

/-- The kernel's run: it terminates with the result array at the layer and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Tiles

end
-- ==== Proof.lean ====
/-
  A binarized dense layer: out = max (x · s(W) + b) 0 with s(w) = +1 for w ≥ 0 and −1 otherwise,
  for x : [8192, 4096], W : [4096, 4096], b : [4096].

  The kernel tiles the result into 1024 × 512 tiles and, per tile, walks the contraction axis in four
  stretches of 1024, keeping a running sum that starts at 0; after the fourth stretch it adds the bias
  and clamps at zero. The reference forms s(W) whole, contracts all 4096 indices at once, adds the
  bias and clamps. On the extended reals the narrowing of the operands to a 16-bit format is the
  identity and a sum may be regrouped freely (addition is associative and commutative with neutral
  element 0), so the running sum after the fourth stretch is the whole contraction and both programs
  compute `BinaryDense.dense`:
    * `Spec`: the function and the regrouping law;
    * `RefDense`: the reference's stages, read at an entry, are that function;
    * `Visit`, `Entry`, `Blocks`: what one visit of the kernel body leaves, at an entry, and where
      its blocks sit in the arrays;
    * `Accum`: the running sum by induction over the visits of a tile;
    * `Tiles`: the written-back tiles cover the result.
  The kernel and its idealization run (terminate without fault, arguments unchanged) by their
  frame theorems; the reference's frame is its run with the result dropped. The idealization
  rewrote nothing, so there is nothing to preserve.
-/
import proofs.«175944_j91070486544907_1_alg».proof.Defs
import proofs.«175944_j91070486544907_1_alg».proof.Proof.Gen.Kernel
import proofs.«175944_j91070486544907_1_alg».proof.Proof.Gen.Kernel.Skeleton
import proofs.«175944_j91070486544907_1_alg».proof.Proof.Gen.Kernel.Launch
import proofs.«175944_j91070486544907_1_alg».proof.Proof.Gen.Kernel.Points
import proofs.«175944_j91070486544907_1_alg».proof.Proof.Gen.Kernel.Frame
import proofs.«175944_j91070486544907_1_alg».proof.Proof.Gen.KernelIdeal
import proofs.«175944_j91070486544907_1_alg».proof.Proof.Gen.KernelIdeal.Skeleton
import proofs.«175944_j91070486544907_1_alg».proof.Proof.Gen.KernelIdeal.Launch
import proofs.«175944_j91070486544907_1_alg».proof.Proof.Gen.KernelIdeal.Points
import proofs.«175944_j91070486544907_1_alg».proof.Proof.Gen.KernelIdeal.Frame
import proofs.«175944_j91070486544907_1_alg».proof.Proof.Gen.ReferenceIdeal
import proofs.«175944_j91070486544907_1_alg».proof.Proof.Gen.Pre_finite_inputs
import proofs.«175944_j91070486544907_1_alg».proof.Proof.Gen.KernelIdeal.Value
import proofs.«175944_j91070486544907_1_alg».proof.Proof.Gen.ReferenceIdeal.Run
import proofs.«175944_j91070486544907_1_alg».proof.Proof.Gen.ReferenceIdeal.Read
import proofs.«175944_j91070486544907_1_alg».proof.Proof.RefDense
import proofs.«175944_j91070486544907_1_alg».proof.Proof.Tiles
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer of their arguments, and the arguments agree. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.DenseValue.stage_eq_dense,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
